-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1000000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S10000x128 : Shape := ⟨2, ![10000, 128]⟩
abbrev S10000x64 : Shape := ⟨2, ![10000, 64]⟩
abbrev S1100000x64 : Shape := ⟨2, ![1100000, 64]⟩
abbrev S100000x32 : Shape := ⟨2, ![100000, 32]⟩
abbrev S10000x32 : Shape := ⟨2, ![10000, 32]⟩
abbrev S1x64 : Shape := ⟨2, ![1, 64]⟩
abbrev S1100000x32 : Shape := ⟨2, ![1100000, 32]⟩
abbrev S1x32 : Shape := ⟨2, ![1, 32]⟩

abbrev nBuf : Space → Nat
  | .hbm => 87
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1000000, .i32⟩
  | .hbm, ⟨8, _⟩ => ⟨S1000000, .i32⟩
  | .hbm, ⟨9, _⟩ => ⟨S1100000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S_, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1100000, .i32⟩
  | .hbm, ⟨32, _⟩ => ⟨S1100000, .i1⟩
  | .hbm, ⟨33, _⟩ => ⟨S_, .i32⟩
  | .hbm, ⟨34, _⟩ => ⟨S1100000, .i32⟩
  | .hbm, ⟨35, _⟩ => ⟨S1100000, .i32⟩
  | .hbm, ⟨36, _⟩ => ⟨S1100000, .i32⟩
  | .hbm, ⟨37, _⟩ => ⟨S1100000x1, .i32⟩
  | .hbm, ⟨38, _⟩ => ⟨S1100000, .f32⟩
  | .hbm, ⟨39, _⟩ => ⟨S_, .i32⟩
  | .hbm, ⟨40, _⟩ => ⟨S1100000, .i32⟩
  | .hbm, ⟨41, _⟩ => ⟨S1100000, .i1⟩
  | .hbm, ⟨42, _⟩ => ⟨S_, .i32⟩
  | .hbm, ⟨43, _⟩ => ⟨S1100000, .i32⟩
  | .hbm, ⟨44, _⟩ => ⟨S1100000, .i32⟩
  | .hbm, ⟨45, _⟩ => ⟨S1100000, .i32⟩
  | .hbm, ⟨46, _⟩ => ⟨S1100000x1, .i32⟩
  | .hbm, ⟨47, _⟩ => ⟨S1100000, .f32⟩
  | .hbm, ⟨48, _⟩ => ⟨S1100000, .f32⟩
  | .hbm, ⟨49, _⟩ => ⟨S100000x128, .bf16⟩
  | .hbm, ⟨50, _⟩ => ⟨S128x64, .bf16⟩
  | .hbm, ⟨51, _⟩ => ⟨S100000x64, .f32⟩
  | .hbm, ⟨52, _⟩ => ⟨S_, .i32⟩
  | .hbm, ⟨53, _⟩ => ⟨S1100000, .i32⟩
  | .hbm, ⟨54, _⟩ => ⟨S1100000, .i1⟩
  | .hbm, ⟨55, _⟩ => ⟨S_, .i32⟩
  | .hbm, ⟨56, _⟩ => ⟨S1100000, .i32⟩
  | .hbm, ⟨57, _⟩ => ⟨S1100000, .i32⟩
  | .hbm, ⟨58, _⟩ => ⟨S1100000, .i32⟩
  | .hbm, ⟨59, _⟩ => ⟨S1100000x1, .i32⟩
  | .hbm, ⟨60, _⟩ => ⟨S1100000x64, .f32⟩
  | .hbm, ⟨61, _⟩ => ⟨S1100000x1, .f32⟩
  | .hbm, ⟨62, _⟩ => ⟨S1100000x64, .f32⟩
  | .hbm, ⟨63, _⟩ => ⟨S1100000x64, .f32⟩
  | .hbm, ⟨64, _⟩ => ⟨S_, .f32⟩
  | .hbm, ⟨65, _⟩ => ⟨S100000x64, .f32⟩
  | .hbm, ⟨66, _⟩ => ⟨S1100000x1, .i32⟩
  | .hbm, ⟨67, _⟩ => ⟨S100000x64, .f32⟩
  | .hbm, ⟨68, _⟩ => ⟨S64x32, .bf16⟩
  | .hbm, ⟨69, _⟩ => ⟨S100000x32, .f32⟩
  | .hbm, ⟨70, _⟩ => ⟨S_, .i32⟩
  | .hbm, ⟨71, _⟩ => ⟨S1100000, .i32⟩
  | .hbm, ⟨72, _⟩ => ⟨S1100000, .i1⟩
  | .hbm, ⟨73, _⟩ => ⟨S_, .i32⟩
  | .hbm, ⟨74, _⟩ => ⟨S1100000, .i32⟩
  | .hbm, ⟨75, _⟩ => ⟨S1100000, .i32⟩
  | .hbm, ⟨76, _⟩ => ⟨S1100000, .i32⟩
  | .hbm, ⟨77, _⟩ => ⟨S1100000x1, .i32⟩
  | .hbm, ⟨78, _⟩ => ⟨S1100000x32, .f32⟩
  | .hbm, ⟨79, _⟩ => ⟨S1100000x1, .f32⟩
  | .hbm, ⟨80, _⟩ => ⟨S1100000x32, .f32⟩
  | .hbm, ⟨81, _⟩ => ⟨S1100000x32, .f32⟩
  | .hbm, ⟨82, _⟩ => ⟨S_, .f32⟩
  | .hbm, ⟨83, _⟩ => ⟨S100000x32, .f32⟩
  | .hbm, ⟨84, _⟩ => ⟨S1100000x1, .i32⟩
  | .hbm, ⟨85, _⟩ => ⟨S100000x32, .f32⟩
  | .hbm, ⟨86, _⟩ => ⟨S100000x32, .f32⟩
  | .local _ .vmem, ⟨0, _⟩ => ⟨S10000x128, .bf16⟩
  | .local _ .vmem, ⟨1, _⟩ => ⟨S10000x128, .bf16⟩
  | .local _ .vmem, ⟨2, _⟩ => ⟨S128x64, .bf16⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x32, .bf16⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32, .f32⟩
  | .local _ .vmem, ⟨14, _⟩ => ⟨S10000x32, .f32⟩
  | .local _ .vmem, ⟨15, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S10000x32_S10000x32_0_0 : ∀ a, (![0, 0] : Fin 2 → Nat) a + S10000x32.size a ≤ S10000x32.size a
  h_S10000x32 : 0 < S10000x32.numel
  bcast_S1100000x1_S1100000x32_0_1 : S1100000x1.BroadcastsInDim S1100000x32 (![0, 1] : Fin 2 → Fin S1100000x32.rank)
  bcast_S_S100000x32 : S_.BroadcastsInDim S100000x32 (![] : Fin 0 → Fin S100000x32.rank)
  shapeCasts_S10000x32_S10000x32 : S10000x32.ShapeCasts S10000x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x128_S128x64_S10000x64_1_0_0_1_n_n_wf : DotDims.WF S10000x128 S128x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S10000x64_S64x32_S10000x32_1_0_0_1_n_n_wf : DotDims.WF S10000x64 S64x32 S10000x32 [1] [0] [0] [1] [] []
  gather_S100000x32_S1100000x1_S1100000x32_1_0_n_n_0_1_132_wf : GatherDims.WF S100000x32 S1100000x1 S1100000x32 [1] [0] [] [0] [] 1 ![1, 32]
  scatter_S100000x32_S1100000x1_S1100000x32_1_0_0_1_wf : ScatterDims.WF S100000x32 S1100000x1 S1100000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .bf16 = 32 ∨ (Rect.block (s := S64x32) S64x32.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32.size a ≤ S32.size a
  hwx2_1 : ∀ i : grid2.Coords, EltTy.bits .f32 = 32 ∨ (Rect.block (s := S32) S32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1100000x1_S1100000x32_1_0_n_n_0_1_132 : GatherDims S100000x32 S1100000x1 S1100000x32 where
  offsetDims := [1]
  collapsedSliceDims := [0]
  operandBatchingDims := []
  startIndicesBatchingDims := []
  startIndexMap := [0]
  indexVectorDim := 1
  sliceSizes := ![1, 32]
  wf := gather_S100000x32_S1100000x1_S1100000x32_1_0_n_n_0_1_132_wf
def scatter_S100000x32_S1100000x1_S1100000x32_1_0_0_1 : ScatterDims S100000x32 S1100000x1 S1100000x32 where
  updateWindowDims := [1]
  insertedWindowDims := [0]
  scatterDimsToOperandDims := [0]
  indexVectorDim := 1
  wf := scatter_S100000x32_S1100000x1_S1100000x32_1_0_0_1_wf

abbrev win0_0 : Pipeline.Window sig grid0 :=
  Pipeline.Window.ofSpec (Memref.whole main_v32) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S100000x32 : Shape := ⟨2, ![100000, 32]⟩
abbrev S1100000x32 : Shape := ⟨2, ![1100000, 32]⟩
abbrev S1x32 : Shape := ⟨2, ![1, 32]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1000000, .i32⟩
  | .hbm, ⟨8, _⟩ => ⟨S1000000, .i32⟩
  | .hbm, ⟨9, _⟩ => ⟨S1100000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S_, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1100000, .i32⟩
  | .hbm, ⟨32, _⟩ => ⟨S1100000, .i1⟩
  | .hbm, ⟨33, _⟩ => ⟨S_, .i32⟩
  | .hbm, ⟨34, _⟩ => ⟨S1100000, .i32⟩
  | .hbm, ⟨35, _⟩ => ⟨S1100000, .i32⟩
  | .hbm, ⟨36, _⟩ => ⟨S1100000, .i32⟩
  | .hbm, ⟨37, _⟩ => ⟨S1100000x1, .i32⟩
  | .hbm, ⟨38, _⟩ => ⟨S1100000, .f32⟩
  | .hbm, ⟨39, _⟩ => ⟨S_, .i32⟩
  | .hbm, ⟨40, _⟩ => ⟨S1100000, .i32⟩
  | .hbm, ⟨41, _⟩ => ⟨S1100000, .i1⟩
  | .hbm, ⟨42, _⟩ => ⟨S_, .i32⟩
  | .hbm, ⟨43, _⟩ => ⟨S1100000, .i32⟩
  | .hbm, ⟨44, _⟩ => ⟨S1100000, .i32⟩
  | .hbm, ⟨45, _⟩ => ⟨S1100000, .i32⟩
  | .hbm, ⟨46, _⟩ => ⟨S1100000x1, .i32⟩
  | .hbm, ⟨47, _⟩ => ⟨S1100000, .f32⟩
  | .hbm, ⟨48, _⟩ => ⟨S1100000, .f32⟩
  | .hbm, ⟨49, _⟩ => ⟨S100000x64, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x64, .f32⟩
  | .hbm, ⟨59, _⟩ => ⟨S1100000x1, .f32⟩
  | .hbm, ⟨60, _⟩ => ⟨S1100000x64, .f32⟩
  | .hbm, ⟨61, _⟩ => ⟨S1100000x64, .f32⟩
  | .hbm, ⟨62, _⟩ => ⟨S_, .f32⟩
  | .hbm, ⟨63, _⟩ => ⟨S100000x64, .f32⟩
  | .hbm, ⟨64, _⟩ => ⟨S1100000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1100000, .i32⟩
  | .hbm, ⟨75, _⟩ => ⟨S1100000, .i1⟩
  | .hbm, ⟨76, _⟩ => ⟨S_, .i32⟩
  | .hbm, ⟨77, _⟩ => ⟨S1100000, .i32⟩
  | .hbm, ⟨78, _⟩ => ⟨S1100000, .i32⟩
  | .hbm, ⟨79, _⟩ => ⟨S1100000, .i32⟩
  | .hbm, ⟨80, _⟩ => ⟨S1100000x1, .i32⟩
  | .hbm, ⟨81, _⟩ => ⟨S1100000x32, .f32⟩
  | .hbm, ⟨82, _⟩ => ⟨S1100000x1, .f32⟩
  | .hbm, ⟨83, _⟩ => ⟨S1100000x32, .f32⟩
  | .hbm, ⟨84, _⟩ => ⟨S1100000x32, .f32⟩
  | .hbm, ⟨85, _⟩ => ⟨S_, .f32⟩
  | .hbm, ⟨86, _⟩ => ⟨S100000x32, .f32⟩
  | .hbm, ⟨87, _⟩ => ⟨S1100000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1100000x1_S1100000x32_0_1 : S1100000x1.BroadcastsInDim S1100000x32 (![0, 1] : Fin 2 → Fin S1100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x32_S100000x32_1_0_0_1_n_n_wf : DotDims.WF S100000x64 S64x32 S100000x32 [1] [0] [0] [1] [] []
  gather_S100000x32_S1100000x1_S1100000x32_1_0_n_n_0_1_132_wf : GatherDims.WF S100000x32 S1100000x1 S1100000x32 [1] [0] [] [0] [] 1 ![1, 32]
  scatter_S100000x32_S1100000x1_S1100000x32_1_0_0_1_wf : ScatterDims.WF S100000x32 S1100000x1 S1100000x32 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1100000x1_S1100000x32_1_0_n_n_0_1_132 : GatherDims S100000x32 S1100000x1 S1100000x32 where
  offsetDims := [1]
  collapsedSliceDims := [0]
  operandBatchingDims := []
  startIndicesBatchingDims := []
  startIndexMap := [0]
  indexVectorDim := 1
  sliceSizes := ![1, 32]
  wf := gather_S100000x32_S1100000x1_S1100000x32_1_0_n_n_0_1_132_wf
def scatter_S100000x32_S1100000x1_S1100000x32_1_0_0_1 : ScatterDims S100000x32 S1100000x1 S1100000x32 where
  updateWindowDims := [1]
  insertedWindowDims := [0]
  scatterDimsToOperandDims := [0]
  indexVectorDim := 1
  wf := scatter_S100000x32_S1100000x1_S1100000x32_1_0_0_1_wf

class Facts : Prop extends Facts₀ where

variable [Facts]
-- ==== Proof.HostStretches.lean ====
/-
  The host program around the three pallas_calls, one stretch of operations at a time. Each stretch is read at the
  buffers a later item uses, from ANY contents `V` of the buffers before it: given what `V` holds at the few buffers the
  stretch reads, the buffer it writes holds the matching stage of the reference's own host program, as a function of
  @main's arguments (the edge list `x1`, the features `x0`, the weights `x2`, `x4` and the first bias `x3`). The two
  programs apply the same operations to their index and weight vectors and to the gathered rows, so nothing here opens
  a gather or a scatter-add: both sides are the same operations of equal operands.
-/
import proofs.«174480_j41850161332531_1_alg».proof.Proof.Gen.KernelIdeal.Launch
import proofs.«174480_j41850161332531_1_alg».proof.Proof.RefRead
import Idealize.ShloMosaic.Lib.StableHlo.Run

set_option maxRecDepth 16384

noncomputable section

namespace Cert.Gcn.Host

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (V : Valuation τ sig (Elt F))
variable (x0 : (⟨S100000x128, .f32⟩ : BufTy).Contents (Elt F)) (x1 : (⟨S2x1000000, .i32⟩ : BufTy).Contents (Elt F))
  (x2 : (⟨S128x64, .f32⟩ : BufTy).Contents (Elt F)) (x3 : (⟨S64, .f32⟩ : BufTy).Contents (Elt F))
  (x4 : (⟨S64x32, .f32⟩ : BufTy).Contents (Elt F))

/-! ## The first stretch: source and destination indices with the self-loops appended, the degrees, their
    positivity mask and the reciprocal square roots -/

/-- The source indices: row 0 of the edge list, then 0 … n-1. -/
theorem src_first (h1 : V (Proc.devRef .tc main_arg1) = x1) :
    after hostOps0 V (Proc.devRef .tc main_v3) = val_main_v3 x1 := by
  subst h1; after_results; rfl

/-- The destination indices: row 1 of the edge list, then 0 … n-1. -/
theorem dst_first (h1 : V (Proc.devRef .tc main_arg1) = x1) :
    after hostOps0 V (Proc.devRef .tc main_v6) = val_main_v6 x1 := by
  subst h1; after_results; rfl

/-- Where the in-degree (self-loop counted) is positive. -/
theorem pos_first (h1 : V (Proc.devRef .tc main_arg1) = x1) :
    after hostOps0 V (Proc.devRef .tc main_v12) = val_main_v12 x1 := by
  subst h1; after_results; rfl

/-- The reciprocal square root of the degree raised to at least one. -/
theorem rsq_first (h1 : V (Proc.devRef .tc main_arg1) = x1) :
    after hostOps0 V (Proc.devRef .tc main_v15) = val_main_v15 x1 := by
  subst h1; after_results; rfl

/-- The zero the mask selects where the degree is not positive. -/
theorem zero_first : after hostOps0 V (Proc.devRef .tc main_cst_3) = val_main_cst_3 (F := F) := by
  after_results; rfl

/-! ## The second stretch: the positive-degree mask applied (jnp.where, outlined by jax) -/

/-- The normalising factor of each node: the reciprocal square root of its degree where that is positive, else zero. -/
theorem dinv_second (h12 : V (Proc.devRef .tc main_v12) = val_main_v12 x1) (h15 : V (Proc.devRef .tc main_v15) = val_main_v15 x1)
    (hz : V (Proc.devRef .tc main_cst_3) = val_main_cst_3 (F := F)) :
    after hostOps0_1 V (Proc.devRef .tc main_v16) = val_main_v16 x1 := by
  after_results
  rw [h12, h15, hz]
  rfl

/-! ## The third stretch: each edge's weight, the product of its two endpoints' factors; the features and the first
    weight matrix narrowed for the first pallas_call -/

set_option maxHeartbeats 2000000 in
/-- The edge weights: the factor gathered at the source times the factor gathered at the destination. -/
theorem norm_third (h3 : V (Proc.devRef .tc main_v3) = val_main_v3 x1) (h6 : V (Proc.devRef .tc main_v6) = val_main_v6 x1)
    (h16 : V (Proc.devRef .tc main_v16) = val_main_v16 x1) :
    after hostOps0_2 V (Proc.devRef .tc main_v31) = val_main_v31 x1 := by
  after_results_simp
  rw [h3, h6, h16]
  rfl

/-- The features, narrowed. -/
theorem feat_third (h0 : V (Proc.devRef .tc main_arg0) = x0) :
    after hostOps0_2 V (Proc.devRef .tc main_v32) = truncf .bf16 x0 bitsLt_bf16_f32 := by
  subst h0; after_results

/-- The first weight matrix, narrowed. -/
theorem w1_third (h2 : V (Proc.devRef .tc main_arg2) = x2) :
    after hostOps0_2 V (Proc.devRef .tc main_v33) = truncf .bf16 x2 bitsLt_bf16_f32 := by
  subst h2; after_results

/-! ## Between the first and the second pallas_call: the first propagation -/

set_option maxHeartbeats 2000000 in
/-- Rows of the transformed features gathered at the sources, weighted, and summed into their destinations. -/
theorem agg_fourth (h3 : V (Proc.devRef .tc main_v3) = val_main_v3 x1) (h6 : V (Proc.devRef .tc main_v6) = val_main_v6 x1)
    (h31 : V (Proc.devRef .tc main_v31) = val_main_v31 x1) (h34 : V (Proc.devRef .tc main_v34) = val_main_v32 x0 x2) :
    after hostOps1 V (Proc.devRef .tc main_v47) = val_main_v45 x0 x1 x2 := by
  after_results_simp
  rw [h3, h6, h31, h34]
  rfl

/-- The second weight matrix, narrowed. -/
theorem w2_fourth (h4 : V (Proc.devRef .tc main_arg4) = x4) :
    after hostOps1 V (Proc.devRef .tc main_v48) = truncf .bf16 x4 bitsLt_bf16_f32 := by
  subst h4; after_results

/-! ## Between the second and the third pallas_call: the second propagation -/

set_option maxHeartbeats 2000000 in
/-- Rows of the second layer's transformed features gathered, weighted and summed the same way. -/
theorem agg_fifth (h3 : V (Proc.devRef .tc main_v3) = val_main_v3 x1) (h6 : V (Proc.devRef .tc main_v6) = val_main_v6 x1)
    (h31 : V (Proc.devRef .tc main_v31) = val_main_v31 x1) (h49 : V (Proc.devRef .tc main_v49) = val_main_v50 x0 x1 x2 x3 x4) :
    after hostOps2 V (Proc.devRef .tc main_v62) = val_main_v63 x0 x1 x2 x3 x4 := by
  after_results_simp
  rw [h3, h6, h31, h49]
  rfl

/-! ## What a stretch leaves alone

A buffer no operation of a stretch writes holds after the stretch what it held before: the arguments throughout, the two
index vectors and the edge weights once they are made. One statement per stretch and buffer a later item still reads. -/
theorem keep_hostOps0_main_arg0 : after hostOps0 V (Proc.devRef .tc main_arg0) = V (Proc.devRef .tc main_arg0) := by after_results
theorem keep_hostOps0_main_arg2 : after hostOps0 V (Proc.devRef .tc main_arg2) = V (Proc.devRef .tc main_arg2) := by after_results
theorem keep_hostOps0_main_arg3 : after hostOps0 V (Proc.devRef .tc main_arg3) = V (Proc.devRef .tc main_arg3) := by after_results
theorem keep_hostOps0_main_arg4 : after hostOps0 V (Proc.devRef .tc main_arg4) = V (Proc.devRef .tc main_arg4) := by after_results
theorem keep_hostOps0_main_arg5 : after hostOps0 V (Proc.devRef .tc main_arg5) = V (Proc.devRef .tc main_arg5) := by after_results
theorem keep_hostOps0_1_main_arg0 : after hostOps0_1 V (Proc.devRef .tc main_arg0) = V (Proc.devRef .tc main_arg0) := by after_results
theorem keep_hostOps0_1_main_arg2 : after hostOps0_1 V (Proc.devRef .tc main_arg2) = V (Proc.devRef .tc main_arg2) := by after_results
theorem keep_hostOps0_1_main_arg3 : after hostOps0_1 V (Proc.devRef .tc main_arg3) = V (Proc.devRef .tc main_arg3) := by after_results
theorem keep_hostOps0_1_main_arg4 : after hostOps0_1 V (Proc.devRef .tc main_arg4) = V (Proc.devRef .tc main_arg4) := by after_results
theorem keep_hostOps0_1_main_arg5 : after hostOps0_1 V (Proc.devRef .tc main_arg5) = V (Proc.devRef .tc main_arg5) := by after_results
theorem keep_hostOps0_1_main_v3 : after hostOps0_1 V (Proc.devRef .tc main_v3) = V (Proc.devRef .tc main_v3) := by after_results
theorem keep_hostOps0_1_main_v6 : after hostOps0_1 V (Proc.devRef .tc main_v6) = V (Proc.devRef .tc main_v6) := by after_results
theorem keep_hostOps0_2_main_arg3 : after hostOps0_2 V (Proc.devRef .tc main_arg3) = V (Proc.devRef .tc main_arg3) := by after_results
theorem keep_hostOps0_2_main_arg4 : after hostOps0_2 V (Proc.devRef .tc main_arg4) = V (Proc.devRef .tc main_arg4) := by after_results
theorem keep_hostOps0_2_main_arg5 : after hostOps0_2 V (Proc.devRef .tc main_arg5) = V (Proc.devRef .tc main_arg5) := by after_results
theorem keep_hostOps0_2_main_v3 : after hostOps0_2 V (Proc.devRef .tc main_v3) = V (Proc.devRef .tc main_v3) := by after_results
theorem keep_hostOps0_2_main_v6 : after hostOps0_2 V (Proc.devRef .tc main_v6) = V (Proc.devRef .tc main_v6) := by after_results
theorem keep_hostOps1_main_arg3 : after hostOps1 V (Proc.devRef .tc main_arg3) = V (Proc.devRef .tc main_arg3) := by after_results
theorem keep_hostOps1_main_arg5 : after hostOps1 V (Proc.devRef .tc main_arg5) = V (Proc.devRef .tc main_arg5) := by after_results
theorem keep_hostOps1_main_v3 : after hostOps1 V (Proc.devRef .tc main_v3) = V (Proc.devRef .tc main_v3) := by after_results
theorem keep_hostOps1_main_v6 : after hostOps1 V (Proc.devRef .tc main_v6) = V (Proc.devRef .tc main_v6) := by after_results
theorem keep_hostOps1_main_v31 : after hostOps1 V (Proc.devRef .tc main_v31) = V (Proc.devRef .tc main_v31) := by after_results
theorem keep_hostOps2_main_arg5 : after hostOps2 V (Proc.devRef .tc main_arg5) = V (Proc.devRef .tc main_arg5) := by after_results

end Cert.Gcn.Host

end
-- ==== Proof.LinearRegion.lean ====
/-
  The first pallas_call: the node features times the first layer's weight matrix, ten thousand rows at a time, both
  operands narrowed on the host beforehand. Read as one function of the whole arrays the region finds: the matrix
  product, entry (r, j) the sum over k of feature (r, k) times weight (k, j).
-/
import proofs.«174480_j41850161332531_1_alg».proof.Proof.Gen.KernelIdeal.Frame
import proofs.«174480_j41850161332531_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.LinearRegion

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

open Cert.ReferenceIdeal.ReadP (lidx_main_v32 ridx_main_v32 val_main_v32 val_main_v32_apply)

theorem hz2 : (![0, 0] : Fin 2 → Nat) = fun _ => 0 := funext fun a => by fin_cases a <;> rfl

/-- The narrowed features as the region finds them, at their literal type. -/
abbrev featArr (c : Dev nD) : Vec Ideal S100000x128 .bf16 := V c main_v32
/-- The narrowed weight matrix as the region finds it, at its literal type. -/
abbrev wArr (c : Dev nD) : Vec Ideal S128x64 .bf16 := V c main_v33

/-- The matrix product of a 100000 × 128 array and a 128 × 64 array: entry (r, j) is the sum over k of
    a(r, k) · w(k, j). -/
def rowsTimes (a : Vec Ideal S100000x128 .bf16) (w : Vec Ideal S128x64 .bf16) : Vec Ideal S100000x64 .f32 :=
  fun i => ∑ k : Fin 128, a (lidx_main_v32 i k) * w (ridx_main_v32 i k)

/-! The operand indices of the block product at output entry `i` and contraction index `q`: row of the left operand
    from `i`, its column from `q`; row of the right operand from `q`, its column from `i`. -/
theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value at entry (p, q) of a block: row p of the feature block times column q of the weights. -/
theorem pay_apply (x0 : Vec Ideal S10000x128 .bf16) (x1 : Vec Ideal S128x64 .bf16) (p : Fin 10000) (q : Fin 64) :
    k0_pay1 x0 x1 (ix2 p q) = ∑ k : Fin 128, x0 (ix2 p k) * x1 (ix2 k q) := by
  unfold k0_pay1
  rw [shapeCast_self, shapeCast_self]
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The printed index maps over the grid: the feature block and the output block sit at block (t, 0), the weights at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the matrix product of the arrays the region finds. -/
theorem flushed_eq (c : Dev nD) (t : Fin cfg0.N) :
    (dat0 V c).flushed 2 t = ((cfg0.win 2).blk t).view.read (Elt Ideal) (rowsTimes (featArr V c) (wArr V c)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x64) hz2]
  obtain ⟨e0, e1, e2, e3, e4, e5⟩ := idx_facts t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = rowsTimes (featArr V c) (wArr V c) (((cfg0.win 2).blk t).view.emb (ix2 p q))
  refine (pay_apply (iblk0 V c 0 t) (iblk0 V c 1 t) p q).trans ?_
  show ∑ k : Fin 128, featArr V c (((cfg0.win 0).blk t).view.emb (ix2 p k)) * wArr V c (((cfg0.win 1).blk t).view.emb (ix2 k q))
    = ∑ k : Fin 128, featArr V c (lidx_main_v32 (((cfg0.win 2).blk t).view.emb (ix2 p q)) k)
        * wArr V c (ridx_main_v32 (((cfg0.win 2).blk t).view.emb (ix2 p q)) k)
  refine Finset.sum_congr rfl fun k _ => ?_
  have h0 : ((cfg0.win 0).blk t).view.emb (ix2 p k) = lidx_main_v32 (((cfg0.win 2).blk t).view.emb (ix2 p q)) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ridx_main_v32 (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [h0, h1]

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The ten row blocks tile the array: row r lies in block r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE ARRAY after the region: the matrix product of the narrowed features and the narrowed weights it found. -/
theorem region_value (c : Dev nD) :
    (dat0 V c).arrAt 2 cfg0.N = rowsTimes (featArr V c) (wArr V c) :=
  (dat0 V c).arrAt_eq_of_cover 2 (rowsTimes (featArr V c) (wArr V c)) (fun t _ => flushed_eq V c t) cover

/-- Narrowing changes no value over the extended reals, so the product of the narrowed operands is the reference's
    `dot_general` of the operands themselves. -/
theorem rowsTimes_eq_ref (x0 : FVec Ideal S100000x128 .f32) (x2 : FVec Ideal S128x64 .f32) :
    rowsTimes (truncf .bf16 x0 bitsLt_bf16_f32) (truncf .bf16 x2 bitsLt_bf16_f32) = val_main_v32 (F := Ideal) x0 x2 := by
  funext i
  exact (val_main_v32_apply x0 x2 i).symm

end Cert.Gcn.LinearRegion

end
-- ==== Proof.HiddenRegion.lean ====
/-
  The second pallas_call: the first layer's bias added to every row of the aggregated features, negative entries
  replaced by zero, the result narrowed and multiplied by the (narrowed) second weight matrix, ten thousand rows at a
  time. Read as one function of the whole arrays the region finds: entry (r, j) is the sum over k of
  max(agg(r, k) + b(k), 0) · w(k, j).
-/
import proofs.«174480_j41850161332531_1_alg».proof.Proof.Gen.KernelIdeal.Frame
import proofs.«174480_j41850161332531_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.HiddenRegion

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

open Cert.ReferenceIdeal.ReadP (lidx_main_v50 ridx_main_v50 val_main_v50 val_main_v50_apply val_main_v49 val_main_v48
  val_main_v47 val_main_v47_apply val_main_v46 val_main_v46_apply idx_main_v46 idx_main_v47
  val_main_call1_v0 val_main_call1_v0_apply val_main_call1_cst val_main_v45)

theorem hz2 : (![0, 0] : Fin 2 → Nat) = fun _ => 0 := funext fun a => by fin_cases a <;> rfl
theorem hz1 : (![0] : Fin 1 → Nat) = fun _ => 0 := funext fun a => by fin_cases a <;> rfl

/-- The aggregated features as the region finds them, at their literal type. -/
abbrev aggArr (c : Dev nD) : Vec Ideal S100000x64 .f32 := V c main_v47
/-- The first layer's bias as the region finds it, at its literal type. -/
abbrev biasArr (c : Dev nD) : Vec Ideal S64 .f32 := V c main_arg3
/-- The narrowed second weight matrix as the region finds it, at its literal type. -/
abbrev wArr (c : Dev nD) : Vec Ideal S64x32 .bf16 := V c main_v48

/-- The hidden activations: the bias added to every row, then the larger of each entry and zero — written with the
    reference's own operations (its bias laid out as a row and repeated down the rows; its zero array). -/
def hidden (y : FVec Ideal S100000x64 .f32) (b : FVec Ideal S64 .f32) : FVec Ideal S100000x64 .f32 :=
  maximumf (addf y (val_main_v47 (F := Ideal) b)) (val_main_call1_v0 (F := Ideal))

/-- Entry (r, k) of the hidden activations is max(y(r, k) + b(k), 0). -/
theorem hidden_apply (y : FVec Ideal S100000x64 .f32) (b : FVec Ideal S64 .f32) (r : Fin 100000) (k : Fin 64) :
    hidden y b (ix2 r k) = max (y (ix2 r k) + b (ix1 k)) (Ideal.ofBits .f32 0x00000000#32) := by
  show max (y (ix2 r k) + val_main_v47 (F := Ideal) b (ix2 r k)) (val_main_call1_v0 (F := Ideal) (ix2 r k)) = _
  rw [val_main_v47_apply, val_main_v46_apply, val_main_call1_v0_apply]
  exact congrArg₂ max (congrArg (y (ix2 r k) + ·) (congrArg b (funext fun a => Fin.ext (by match a with | ⟨0, _⟩ => rfl)))) rfl

/-- The hidden activations times a 64 × 32 array: entry (r, j) is the sum over k of hidden(r, k) · w(k, j). -/
def hiddenTimes (y : Vec Ideal S100000x64 .f32) (b : Vec Ideal S64 .f32) (w : Vec Ideal S64x32 .bf16) : Vec Ideal S100000x32 .f32 :=
  fun i => ∑ k : Fin 64, hidden y b (lidx_main_v50 i k) * w (ridx_main_v50 i k)

/-! The operand indices of the block product at output entry `i` and contraction index `q`. -/
theorem lhs_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The body's stored value at entry (p, q) of a block: row p of the block with the bias added and negatives
    zeroed, times column q of the weights. -/
theorem pay_apply (x0 : Vec Ideal S10000x64 .f32) (x1 : Vec Ideal S64 .f32) (x2 : Vec Ideal S64x32 .bf16) (p : Fin 10000) (q : Fin 32) :
    k1_pay1 x0 x1 x2 (ix2 p q)
      = ∑ k : Fin 64, max (x0 (ix2 p k) + x1 (ix1 k)) (Ideal.ofBits .f32 0x00000000#32) * x2 (ix2 k q) := by
  unfold k1_pay1
  rw [shapeCast_self, shapeCast_self]
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p q) ((ValueIdx.contrEquiv1 dot_S10000x64_S64x32_S10000x32_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x32_S10000x32_1_0_0_1_n_n.rhsIdx (ix2 p q) ((ValueIdx.contrEquiv1 dot_S10000x64_S64x32_S10000x32_1_0_0_1_n_n 64 rfl rfl).symm k) = ix2 k q := funext fun a => Fin.ext (by
    match a with
    | ⟨0, _⟩ => exact (rhs_0 _ _).trans hk
    | ⟨1, _⟩ => exact rhs_1 _ _)
  rw [el, er]
  refine congrArg (· * x2 (ix2 k q)) ?_
  show max (x0 (ix2 p k) + broadcastTo S10000x64 (shapeCast S1x64 x1 shapeCasts_S64_S1x64) broadcasts_S1x64_S10000x64 (ix2 p k))
    (Scalar.ofBits (F := Ideal) .f32 0x00000000#32) = _
  rw [broadcastTo_1b_ab_apply, shapeCast_a_1a_apply]
  rfl

/-- The printed index maps over the grid: the aggregated block and the output block sit at block (t, 0), the bias at
    block (0), the weights at block (0, 0). -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the hidden activations times the weights, of the arrays the region finds. -/
theorem flushed_eq (c : Dev nD) (t : Fin cfg1.N) :
    (dat1 V c).flushed 3 t = ((cfg1.win 3).blk t).view.read (Elt Ideal) (hiddenTimes (aggArr V c) (biasArr V c) (wArr V c)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64) hz1, View.ld_unit_zero (S := S64x32) hz2]
  obtain ⟨e0, e1, e2, e3, e4, e5, e6⟩ := idx_facts t
  funext j
  obtain ⟨p, q, rfl⟩ : ∃ (p : Fin 10000) (q : Fin 32), j = ix2 p q := ⟨j 0, j 1, eq_ix2 j⟩
  show k1_pay1 (iblk1 V c 0 t) (iblk1 V c 1 t) (iblk1 V c 2 t) (ix2 p q)
    = hiddenTimes (aggArr V c) (biasArr V c) (wArr V c) (((cfg1.win 3).blk t).view.emb (ix2 p q))
  refine (pay_apply (iblk1 V c 0 t) (iblk1 V c 1 t) (iblk1 V c 2 t) p q).trans ?_
  show ∑ k : Fin 64, max (aggArr V c (((cfg1.win 0).blk t).view.emb (ix2 p k)) + biasArr V c (((cfg1.win 1).blk t).view.emb (ix1 k)))
        (Ideal.ofBits .f32 0x00000000#32) * wArr V c (((cfg1.win 2).blk t).view.emb (ix2 k q))
    = ∑ k : Fin 64, hidden (aggArr V c) (biasArr V c) (lidx_main_v50 (((cfg1.win 3).blk t).view.emb (ix2 p q)) k)
        * wArr V c (ridx_main_v50 (((cfg1.win 3).blk t).view.emb (ix2 p q)) k)
  refine Finset.sum_congr rfl fun k _ => ?_
  have h0 : ((cfg1.win 0).blk t).view.emb (ix2 p k)
      = ix2 (⟨((((cfg1.win 3).blk t).view.emb (ix2 p q)) 0).val, ((((cfg1.win 3).blk t).view.emb (ix2 p q)) 0).isLt⟩ : Fin 100000) k := by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have hl : lidx_main_v50 (((cfg1.win 3).blk t).view.emb (ix2 p q)) k
      = ix2 (⟨((((cfg1.win 3).blk t).view.emb (ix2 p q)) 0).val, ((((cfg1.win 3).blk t).view.emb (ix2 p q)) 0).isLt⟩ : Fin 100000) k :=
    funext fun a => by match a with | ⟨0, _⟩ => rfl | ⟨1, _⟩ => rfl
  have hb : ((cfg1.win 1).blk t).view.emb (ix1 k) = ix1 k := by
    funext a; apply Fin.ext
    match a with
    | ⟨0, _⟩ => show win1_1.index t (0 : Fin 1) * 64 + 1 * k.val = k.val; omega
  have h2 : ((cfg1.win 2).blk t).view.emb (ix2 k q) = ridx_main_v50 (((cfg1.win 3).blk t).view.emb (ix2 p q)) k := by
    funext a; apply Fin.ext
    match a with
    | ⟨0, _⟩ => show win1_2.index t (0 : Fin 2) * 64 + 1 * k.val = k.val; omega
    | ⟨1, _⟩ => show win1_2.index t (1 : Fin 2) * 32 + 1 * q.val = win1_3.index t (1 : Fin 2) * 32 + 1 * q.val; omega
  rw [h0, hb, h2, hl]
  exact congrArg (· * _) (hidden_apply (aggArr V c) (biasArr V c) _ k).symm

/-- An index of the array is in point `t`'s block iff each coordinate is in the block's range on its axis. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v49).slice (win1_3.rect t)).set ↔ _
  rw [View.set_slice_whole, Rect.mem_set_unit]
  exact Iff.rfl

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- The ten row blocks tile the array: row r lies in block r / 10000. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 32 ≤ (i 1).val ∧ (i 1).val < win1_3.index t (1 : Fin 2) * 32 + 32; omega

/-- THE ARRAY after the region: the hidden activations of the aggregated features and the bias it found, times the
    narrowed weights it found. -/
theorem region_value (c : Dev nD) :
    (dat1 V c).arrAt 3 cfg1.N = hiddenTimes (aggArr V c) (biasArr V c) (wArr V c) :=
  (dat1 V c).arrAt_eq_of_cover 3 (hiddenTimes (aggArr V c) (biasArr V c) (wArr V c)) (fun t _ => flushed_eq V c t) cover

/-- Narrowing changes no value over the extended reals, and the reference's relu is the same maximum with zero, so the
    region's array is the reference's second `dot_general` when the aggregated features are the reference's. -/
theorem hiddenTimes_eq_ref (x0 : FVec Ideal S100000x128 .f32) (x1 : IVec S2x1000000 32) (x2 : FVec Ideal S128x64 .f32)
    (x3 : FVec Ideal S64 .f32) (x4 : FVec Ideal S64x32 .f32) :
    hiddenTimes (val_main_v45 (F := Ideal) x0 x1 x2) x3 (truncf .bf16 x4 bitsLt_bf16_f32) = val_main_v50 (F := Ideal) x0 x1 x2 x3 x4 := by
  funext i
  exact (val_main_v50_apply x0 x1 x2 x3 x4 i).symm

end Cert.Gcn.HiddenRegion

end
-- ==== Proof.BiasRegion.lean ====
/-
  The last pallas_call: the second layer's bias added to every row of the aggregated features, ten thousand rows
  at a time. Read as one function of the whole arrays the region finds.
-/
import proofs.«174480_j41850161332531_1_alg».proof.Proof.Gen.KernelIdeal.Frame
import proofs.«174480_j41850161332531_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.BiasRegion

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Every row of `a` plus the vector `b`: entry (r, j) is a(r, j) + b(j). -/
def rowsPlus (a : Vec Ideal S100000x32 .f32) (b : Vec Ideal S32 .f32) : Vec Ideal S100000x32 .f32 :=
  fun i => a i + b (ix1 (i 1))

/-- The aggregated features as the region finds them, at their literal type. -/
abbrev aggArr (c : Dev nD) : Vec Ideal S100000x32 .f32 := V c main_v62
/-- The bias vector as the region finds it, at its literal type. -/
abbrev biasArr (c : Dev nD) : Vec Ideal S32 .f32 := V c main_arg5

/-- The body's stored value at entry (p, q) of a block: the block's entry plus the bias's q-th entry. -/
theorem pay_apply (x0 : Vec Ideal S10000x32 .f32) (x1 : Vec Ideal S32 .f32) (p : Fin 10000) (q : Fin 32) :
    k2_pay1 x0 x1 (ix2 p q) = x0 (ix2 p q) + x1 (ix1 q) := by
  unfold k2_pay1
  refine (addf_apply _ _ _).trans ?_
  refine congrArg₂ (· + ·) (congrFun (shapeCast_self x0 _) _) ?_
  refine (broadcastTo_1b_ab_apply _ _ p q).trans ?_
  exact shapeCast_a_1a_apply x1 _ 0 q

/-- The printed index maps over the grid: the row-blocked input and the output sit at block (t, 0), the bias at
    block (0). -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- WHAT POINT `t` WRITES BACK is block `t` of the rows-plus-bias array of the arrays the region finds. -/
theorem flushed_eq (c : Dev nD) (t : Fin cfg2.N) :
    (dat2 V c).flushed 2 t = ((cfg2.win 2).blk t).view.read (Elt Ideal) (rowsPlus (aggArr V c) (biasArr V c)) := by
  show (cfg2.win 2).cut (grid2.coords t) ((dat2 V c).after 2 t) = _
  rw [after2_2]
  unfold out2_2
  rw [View.canon_unit_zero hz2]
  simp only [View.ld_unit_zero (S := S10000x32) hz2, View.ld_unit_zero (S := S32) hz1]
  obtain ⟨e0, e1, e2, e3, e4⟩ := idx_facts t
  funext j
  obtain ⟨p, q, rfl⟩ : ∃ (p : Fin 10000) (q : Fin 32), j = ix2 p q := ⟨j 0, j 1, eq_ix2 j⟩
  show k2_pay1 (iblk2 V c 0 t) (iblk2 V c 1 t) (ix2 p q)
    = rowsPlus (aggArr V c) (biasArr V c) (((cfg2.win 2).blk t).view.emb (ix2 p q))
  refine (pay_apply (iblk2 V c 0 t) (iblk2 V c 1 t) p q).trans ?_
  show aggArr V c (((cfg2.win 0).blk t).view.emb (ix2 p q)) + biasArr V c (((cfg2.win 1).blk t).view.emb (ix1 q))
    = aggArr V c (((cfg2.win 2).blk t).view.emb (ix2 p q))
      + biasArr V c (ix1 ((((cfg2.win 2).blk t).view.emb (ix2 p q)) 1))
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 32 + 1 * q.val = win2_2.index t (1 : Fin 2) * 32 + 1 * q.val; omega
  have h1 : ((cfg2.win 1).blk t).view.emb (ix1 q) = ix1 ((((cfg2.win 2).blk t).view.emb (ix2 p q)) 1) := by
    funext a; apply Fin.ext
    match a with
    | ⟨0, _⟩ => show win2_1.index t (0 : Fin 1) * 32 + 1 * q.val = win2_2.index t (1 : Fin 2) * 32 + 1 * q.val; omega
  rw [h0, h1]
  rfl

/-- An index of the array is in point `t`'s block iff each coordinate is in the block's range on its axis. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v63).slice (win2_2.rect t)).set ↔ _
  rw [View.set_slice_whole, Rect.mem_set_unit]
  exact Iff.rfl

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- The ten row blocks tile the array: row r lies in block r / 10000. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- THE ARRAY after the region: every row of the array it found at `main_v62` plus the bias it found at `main_arg5`. -/
theorem region_value (c : Dev nD) :
    (dat2 V c).arrAt 2 cfg2.N = rowsPlus (aggArr V c) (biasArr V c) :=
  (dat2 V c).arrAt_eq_of_cover 2 (rowsPlus (aggArr V c) (biasArr V c)) (fun t _ => flushed_eq V c t) cover

/-- Adding the bias to every row is the reference's own last step: there the bias is first laid out as a 1 × 32 row,
    that row repeated down the 100000 rows, and the result added entry by entry. -/
theorem rowsPlus_eq_ref (y : Vec Ideal S100000x32 .f32) (x5 : Vec Ideal S32 .f32) :
    rowsPlus y x5 = addf (F := Ideal) (φ := .f32) y (Cert.ReferenceIdeal.ReadP.val_main_v65 (F := Ideal) x5) := by
  funext i
  obtain ⟨r, j, rfl⟩ : ∃ (r : Fin 100000) (j : Fin 32), i = ix2 r j := ⟨i 0, i 1, eq_ix2 i⟩
  show y (ix2 r j) + x5 (ix1 j) = y (ix2 r j) + Cert.ReferenceIdeal.ReadP.val_main_v65 (F := Ideal) x5 (ix2 r j)
  rw [Cert.ReferenceIdeal.ReadP.val_main_v65_apply, Cert.ReferenceIdeal.ReadP.val_main_v64_apply]
  exact congrArg (fun z => y (ix2 r j) + x5 z) (funext fun a => Fin.ext (by match a with | ⟨0, _⟩ => rfl))

end Cert.Gcn.BiasRegion

end
-- ==== Proof.Bridge.lean ====
/-
  What the kernel's program leaves in its result array, as a function of @main's six arguments. The fold of buffer
  contents through @main's eight segments (three stretches of host operations, the first pallas_call, a stretch, the
  second pallas_call, a stretch, the third pallas_call) is walked once, at the ideal values: a host stretch gives the
  buffer it writes as the matching stage of the reference's host program; a pallas_call gives its output array as one
  whole-array function of the arrays it finds; a buffer nothing writes in between is carried along unchanged. The two
  matrix products are the reference's `dot_general`s because narrowing a value is the identity over the extended reals
  and a product accumulated into zero is the plain sum; the fused bias-and-relu is the reference's broadcast, add and
  maximum; the last bias add is its last addition. So the result array is the reference's result stage of the same
  arguments.
-/
import proofs.«174480_j41850161332531_1_alg».proof.Proof.Gen.KernelIdeal.Frame
import proofs.«174480_j41850161332531_1_alg».proof.Proof.RefRead
import proofs.«174480_j41850161332531_1_alg».proof.Proof.HostStretches
import proofs.«174480_j41850161332531_1_alg».proof.Proof.LinearRegion
import proofs.«174480_j41850161332531_1_alg».proof.Proof.HiddenRegion
import proofs.«174480_j41850161332531_1_alg».proof.Proof.BiasRegion

set_option maxRecDepth 16384

noncomputable section

namespace Cert.Gcn.Bridge

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## @main's arguments as launched -/

abbrev a0 : FVec Ideal S100000x128 .f32 := m ((c : Thread nD τ).loc main_arg0)
abbrev a1 : IVec S2x1000000 32 := m ((c : Thread nD τ).loc main_arg1)
abbrev a2 : FVec Ideal S128x64 .f32 := m ((c : Thread nD τ).loc main_arg2)
abbrev a3 : FVec Ideal S64 .f32 := m ((c : Thread nD τ).loc main_arg3)
abbrev a4 : FVec Ideal S64x32 .f32 := m ((c : Thread nD τ).loc main_arg4)
abbrev a5 : FVec Ideal S32 .f32 := m ((c : Thread nD τ).loc main_arg5)

/-! ## Up to the first pallas_call -/

theorem src1 : W1 m ρ c (Proc.devRef .tc main_v3) = val_main_v3 (a1 m c) := Host.src_first (W0 m ρ c) (a1 m c) rfl
theorem dst1 : W1 m ρ c (Proc.devRef .tc main_v6) = val_main_v6 (a1 m c) := Host.dst_first (W0 m ρ c) (a1 m c) rfl
theorem pos1 : W1 m ρ c (Proc.devRef .tc main_v12) = val_main_v12 (a1 m c) := Host.pos_first (W0 m ρ c) (a1 m c) rfl
theorem rsq1 : W1 m ρ c (Proc.devRef .tc main_v15) = val_main_v15 (a1 m c) := Host.rsq_first (W0 m ρ c) (a1 m c) rfl
theorem zero1 : W1 m ρ c (Proc.devRef .tc main_cst_3) = val_main_cst_3 (F := Ideal) := Host.zero_first (W0 m ρ c)

theorem dinv2 : W2 m ρ c (Proc.devRef .tc main_v16) = val_main_v16 (a1 m c) :=
  Host.dinv_second (W1 m ρ c) (a1 m c) (pos1 m ρ c) (rsq1 m ρ c) (zero1 m ρ c)
theorem src2 : W2 m ρ c (Proc.devRef .tc main_v3) = val_main_v3 (a1 m c) := (Host.keep_hostOps0_1_main_v3 (W1 m ρ c)).trans (src1 m ρ c)
theorem dst2 : W2 m ρ c (Proc.devRef .tc main_v6) = val_main_v6 (a1 m c) := (Host.keep_hostOps0_1_main_v6 (W1 m ρ c)).trans (dst1 m ρ c)
theorem arg0_2 : W2 m ρ c (Proc.devRef .tc main_arg0) = a0 m c :=
  (Host.keep_hostOps0_1_main_arg0 (W1 m ρ c)).trans (Host.keep_hostOps0_main_arg0 (W0 m ρ c))
theorem arg2_2 : W2 m ρ c (Proc.devRef .tc main_arg2) = a2 m c :=
  (Host.keep_hostOps0_1_main_arg2 (W1 m ρ c)).trans (Host.keep_hostOps0_main_arg2 (W0 m ρ c))

theorem norm3 : W3 m ρ c (Proc.devRef .tc main_v31) = val_main_v31 (a1 m c) :=
  Host.norm_third (W2 m ρ c) (a1 m c) (src2 m ρ c) (dst2 m ρ c) (dinv2 m ρ c)
theorem feat3 : W3 m ρ c (Proc.devRef .tc main_v32) = truncf .bf16 (a0 m c) bitsLt_bf16_f32 :=
  Host.feat_third (W2 m ρ c) (a0 m c) (arg0_2 m ρ c)
theorem w1_3 : W3 m ρ c (Proc.devRef .tc main_v33) = truncf .bf16 (a2 m c) bitsLt_bf16_f32 :=
  Host.w1_third (W2 m ρ c) (a2 m c) (arg2_2 m ρ c)
theorem src3 : W3 m ρ c (Proc.devRef .tc main_v3) = val_main_v3 (a1 m c) := (Host.keep_hostOps0_2_main_v3 (W2 m ρ c)).trans (src2 m ρ c)
theorem dst3 : W3 m ρ c (Proc.devRef .tc main_v6) = val_main_v6 (a1 m c) := (Host.keep_hostOps0_2_main_v6 (W2 m ρ c)).trans (dst2 m ρ c)
theorem arg3_3 : W3 m ρ c (Proc.devRef .tc main_arg3) = a3 m c :=
  (Host.keep_hostOps0_2_main_arg3 (W2 m ρ c)).trans ((Host.keep_hostOps0_1_main_arg3 (W1 m ρ c)).trans (Host.keep_hostOps0_main_arg3 (W0 m ρ c)))
theorem arg4_3 : W3 m ρ c (Proc.devRef .tc main_arg4) = a4 m c :=
  (Host.keep_hostOps0_2_main_arg4 (W2 m ρ c)).trans ((Host.keep_hostOps0_1_main_arg4 (W1 m ρ c)).trans (Host.keep_hostOps0_main_arg4 (W0 m ρ c)))
theorem arg5_3 : W3 m ρ c (Proc.devRef .tc main_arg5) = a5 m c :=
  (Host.keep_hostOps0_2_main_arg5 (W2 m ρ c)).trans ((Host.keep_hostOps0_1_main_arg5 (W1 m ρ c)).trans (Host.keep_hostOps0_main_arg5 (W0 m ρ c)))

/-! ## The first pallas_call: the transformed features -/

theorem lin4 : W4 m ρ c (Proc.devRef .tc main_v34) = val_main_v32 (F := Ideal) (a0 m c) (a2 m c) := by
  refine (W4_arr m ρ c 2).trans ?_
  rw [LinearRegion.region_value (V3 m ρ) c]
  show LinearRegion.rowsTimes (W3 m ρ c (Proc.devRef .tc main_v32)) (W3 m ρ c (Proc.devRef .tc main_v33)) = _
  rw [feat3, w1_3]
  exact LinearRegion.rowsTimes_eq_ref (a0 m c) (a2 m c)

theorem src4 : W4 m ρ c (Proc.devRef .tc main_v3) = val_main_v3 (a1 m c) := (W4_of_ne m ρ c main_v3 (by decide)).trans (src3 m ρ c)
theorem dst4 : W4 m ρ c (Proc.devRef .tc main_v6) = val_main_v6 (a1 m c) := (W4_of_ne m ρ c main_v6 (by decide)).trans (dst3 m ρ c)
theorem norm4 : W4 m ρ c (Proc.devRef .tc main_v31) = val_main_v31 (a1 m c) := (W4_of_ne m ρ c main_v31 (by decide)).trans (norm3 m ρ c)
theorem arg3_4 : W4 m ρ c (Proc.devRef .tc main_arg3) = a3 m c := (W4_of_ne m ρ c main_arg3 (by decide)).trans (arg3_3 m ρ c)
theorem arg4_4 : W4 m ρ c (Proc.devRef .tc main_arg4) = a4 m c := (W4_of_ne m ρ c main_arg4 (by decide)).trans (arg4_3 m ρ c)
theorem arg5_4 : W4 m ρ c (Proc.devRef .tc main_arg5) = a5 m c := (W4_of_ne m ρ c main_arg5 (by decide)).trans (arg5_3 m ρ c)

/-! ## The first propagation, and the second pallas_call: the second layer's transformed features -/

theorem agg5 : W5 m ρ c (Proc.devRef .tc main_v47) = val_main_v45 (F := Ideal) (a0 m c) (a1 m c) (a2 m c) :=
  Host.agg_fourth (W4 m ρ c) (a0 m c) (a1 m c) (a2 m c) (src4 m ρ c) (dst4 m ρ c) (norm4 m ρ c) (lin4 m ρ c)
theorem w2_5 : W5 m ρ c (Proc.devRef .tc main_v48) = truncf .bf16 (a4 m c) bitsLt_bf16_f32 :=
  Host.w2_fourth (W4 m ρ c) (a4 m c) (arg4_4 m ρ c)
theorem arg3_5 : W5 m ρ c (Proc.devRef .tc main_arg3) = a3 m c := (Host.keep_hostOps1_main_arg3 (W4 m ρ c)).trans (arg3_4 m ρ c)
theorem arg5_5 : W5 m ρ c (Proc.devRef .tc main_arg5) = a5 m c := (Host.keep_hostOps1_main_arg5 (W4 m ρ c)).trans (arg5_4 m ρ c)
theorem src5 : W5 m ρ c (Proc.devRef .tc main_v3) = val_main_v3 (a1 m c) := (Host.keep_hostOps1_main_v3 (W4 m ρ c)).trans (src4 m ρ c)
theorem dst5 : W5 m ρ c (Proc.devRef .tc main_v6) = val_main_v6 (a1 m c) := (Host.keep_hostOps1_main_v6 (W4 m ρ c)).trans (dst4 m ρ c)
theorem norm5 : W5 m ρ c (Proc.devRef .tc main_v31) = val_main_v31 (a1 m c) := (Host.keep_hostOps1_main_v31 (W4 m ρ c)).trans (norm4 m ρ c)

theorem hid6 : W6 m ρ c (Proc.devRef .tc main_v49)
    = val_main_v50 (F := Ideal) (a0 m c) (a1 m c) (a2 m c) (a3 m c) (a4 m c) := by
  refine (W6_arr m ρ c 3).trans ?_
  rw [HiddenRegion.region_value (V5 m ρ) c]
  show HiddenRegion.hiddenTimes (W5 m ρ c (Proc.devRef .tc main_v47)) (W5 m ρ c (Proc.devRef .tc main_arg3))
    (W5 m ρ c (Proc.devRef .tc main_v48)) = _
  rw [agg5, arg3_5, w2_5]
  exact HiddenRegion.hiddenTimes_eq_ref (a0 m c) (a1 m c) (a2 m c) (a3 m c) (a4 m c)

theorem src6 : W6 m ρ c (Proc.devRef .tc main_v3) = val_main_v3 (a1 m c) := (W6_of_ne m ρ c main_v3 (by decide)).trans (src5 m ρ c)
theorem dst6 : W6 m ρ c (Proc.devRef .tc main_v6) = val_main_v6 (a1 m c) := (W6_of_ne m ρ c main_v6 (by decide)).trans (dst5 m ρ c)
theorem norm6 : W6 m ρ c (Proc.devRef .tc main_v31) = val_main_v31 (a1 m c) := (W6_of_ne m ρ c main_v31 (by decide)).trans (norm5 m ρ c)
theorem arg5_6 : W6 m ρ c (Proc.devRef .tc main_arg5) = a5 m c := (W6_of_ne m ρ c main_arg5 (by decide)).trans (arg5_5 m ρ c)

/-! ## The second propagation, and the third pallas_call: the result -/

theorem agg7 : W7 m ρ c (Proc.devRef .tc main_v62)
    = val_main_v63 (F := Ideal) (a0 m c) (a1 m c) (a2 m c) (a3 m c) (a4 m c) :=
  Host.agg_fifth (W6 m ρ c) (a0 m c) (a1 m c) (a2 m c) (a3 m c) (a4 m c) (src6 m ρ c) (dst6 m ρ c) (norm6 m ρ c) (hid6 m ρ c)
theorem arg5_7 : W7 m ρ c (Proc.devRef .tc main_arg5) = a5 m c := (Host.keep_hostOps2_main_arg5 (W6 m ρ c)).trans (arg5_6 m ρ c)

/-- THE RESULT ARRAY after @main, as the fold leaves it, is the reference's result stage of @main's arguments. -/
theorem result_value : W8 m ρ c (Proc.devRef .tc main_v63)
    = val_main_v66 (F := Ideal) (a0 m c) (a1 m c) (a2 m c) (a3 m c) (a4 m c) (a5 m c) := by
  refine (W8_arr m ρ c 2).trans ?_
  rw [BiasRegion.region_value (V7 m ρ) c]
  show BiasRegion.rowsPlus (W7 m ρ c (Proc.devRef .tc main_v62)) (W7 m ρ c (Proc.devRef .tc main_arg5)) = _
  rw [agg7, arg5_7, BiasRegion.rowsPlus_eq_ref]
  rfl

end Cert.Gcn.Bridge

end
-- ==== Proof.lean ====
/-
  A two-layer graph convolution. With the self-loops appended to the edge list, `deg` the number of edges into each
  node, `d = deg^(-1/2)` where `deg > 0` and `0` elsewhere, and `w(e) = d(src e) · d(dst e)` the weight of edge `e`, one
  layer maps node features `h` to `P(h · W) + b`, where `P(g)` sums into each node `v` the rows `w(e) · g(src e)` over the
  edges `e` into `v`; the network is `P(relu(P(x · W1) + b1) · W2) + b2`.

  The reference computes exactly that on the host. The kernel computes the index vectors, the weights and both
  propagations `P` by the very same host operations, and does the dense work in three pallas_calls over blocks of ten
  thousand rows: `x · W1` (both operands narrowed to bf16 first), `relu(· + b1) · W2` (the activations and `W2`
  narrowed), and `· + b2`. Over the extended reals narrowing a value is the identity and a block product accumulated
  into zero is the plain sum over the contracted index, so each pallas_call's output array is, row block by row block,
  the reference's `dot_general` (resp. its broadcast, add and maximum; its last addition) of the same arrays; the row
  blocks tile the array. Since the host operations in between are applied to equal operands on both sides — no gather
  or scatter-add is ever opened — the two result arrays are the same function of the six arguments. No law that needs
  finiteness is used: the precondition is never opened.

  The three frames: the two kernel programs' are the generated frame certificates; the reference's is its run with the
  result dropped. The idealization rewrote nothing, so `preserves` is trivial.
-/
import proofs.«174480_j41850161332531_1_alg».proof.Defs
import proofs.«174480_j41850161332531_1_alg».proof.Proof.Gen.Kernel
import proofs.«174480_j41850161332531_1_alg».proof.Proof.Gen.Kernel.Frame
import proofs.«174480_j41850161332531_1_alg».proof.Proof.Gen.KernelIdeal
import proofs.«174480_j41850161332531_1_alg».proof.Proof.Gen.KernelIdeal.Frame
import proofs.«174480_j41850161332531_1_alg».proof.Proof.Gen.ReferenceIdeal
import proofs.«174480_j41850161332531_1_alg».proof.Proof.Gen.Pre_finite_inputs
import proofs.«174480_j41850161332531_1_alg».proof.Proof.KernelRun
import proofs.«174480_j41850161332531_1_alg».proof.Proof.RefRun
import proofs.«174480_j41850161332531_1_alg».proof.Proof.RefRead
import proofs.«174480_j41850161332531_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs, nothing faulting, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the statement about the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both idealized programs run to the end, and the kernel's result
    array holds what the reference's does: the reference's result stage of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v63),
    Cert.KernelIdeal.GenRun.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  rw [Cert.ReferenceIdeal.ReadP.val_main_v66_eq, e0, e1, e2, e3, e4, e5]
  exact (Cert.Gcn.Bridge.result_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
